-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v5_0)) (v3 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v5_0) = v2 c
          ∧ r.2.mem ((c.tc : Thread Cert.KernelIdeal.nD Cert.KernelIdeal.τ).loc Cert.KernelIdeal.main_v5_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v23) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x17 : Shape := ⟨2, ![1, 17]⟩
abbrev S1x4096 : Shape := ⟨2, ![1, 4096]⟩
abbrev S4096x4096 : Shape := ⟨2, ![4096, 4096]⟩
abbrev S17x4096 : Shape := ⟨2, ![17, 4096]⟩
abbrev S4096 : Shape := ⟨1, ![4096]⟩
abbrev S1 : Shape := ⟨1, ![1]⟩
abbrev S4096x4 : Shape := ⟨2, ![4096, 4]⟩
abbrev S4 : Shape := ⟨1, ![4]⟩
abbrev S4096x1 : Shape := ⟨2, ![4096, 1]⟩
abbrev S_ : Shape := ⟨0, ![]⟩

class Facts : Prop where
  bcast_S_S1x17 : S_.BroadcastsInDim S1x17 (![] : Fin 0 → Fin S1x17.rank)
  reducesTo_S1x17_S_d0_1 : S1x17.ReducesTo [0, 1] S_
  h_S_ : 0 < S_.numel
  bcast_S_S1x4096 : S_.BroadcastsInDim S1x4096 (![] : Fin 0 → Fin S1x4096.rank)
  reducesTo_S1x4096_S_d0_1 : S1x4096.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S17x4096 : S_.BroadcastsInDim S17x4096 (![] : Fin 0 → Fin S17x4096.rank)
  reducesTo_S17x4096_S_d0_1 : S17x4096.ReducesTo [0, 1] S_
  bcast_S_S4096 : S_.BroadcastsInDim S4096 (![] : Fin 0 → Fin S4096.rank)
  reducesTo_S4096_S_d0 : S4096.ReducesTo [0] S_
  bcast_S_S1 : S_.BroadcastsInDim S1 (![] : Fin 0 → Fin S1.rank)
  reducesTo_S1_S_d0 : S1.ReducesTo [0] S_
  bcast_S_S4096x4 : S_.BroadcastsInDim S4096x4 (![] : Fin 0 → Fin S4096x4.rank)
  reducesTo_S4096x4_S_d0_1 : S4096x4.ReducesTo [0, 1] S_
  bcast_S_S4 : S_.BroadcastsInDim S4 (![] : Fin 0 → Fin S4.rank)
  reducesTo_S4_S_d0 : S4.ReducesTo [0] S_
  bcast_S_S4096x1 : S_.BroadcastsInDim S4096x1 (![] : Fin 0 → Fin S4096x1.rank)
  reducesTo_S4096x1_S_d0_1 : S4096x1.ReducesTo [0, 1] S_

variable [Facts]

def fn_part3 {F : FTy → Type} [FloatOps F] (main_arg11 : FVec F S1 .f32) (main_v48 : IVec S_ 1) (main_v49 : FVec F S4096x1 .f32) (main_v50 : FVec F S4096x1 .f32) : IVec S_ 1 :=
  let main_v51 : IVec S4096x1 1 := cmpf .olt main_v49 main_v50
  let main_c_19 : IVec S_ 1 := constantI S_ 1 1#1
  let main_v52 : IVec S_ 1 := (fun x v => Host.reduce IntOp.andi x v reducesTo_S4096x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S1 .f32) (main_arg8 : FVec F S4096x4 .f32) (main_arg9 : FVec F S4 .f32) (main_arg10 : FVec F S4096x1 .f32) (main_arg11 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S4096x4 .f32 := Host.absf main_arg8
  let main_cst_14 : FVec F S_ .f32 := constant S_ .f32 0x7F800000#32
  let main_v40 : FVec F S4096x4 .f32 := broadcastInDim S4096x4 ![] bcast_S_S4096x4 main_cst_14
  let main_v41 : IVec S4096x4 1 := cmpf .olt main_v39 main_v40
  let main_c_15 : IVec S_ 1 := constantI S_ 1 1#1
  let main_v42 : IVec S_ 1 := (fun x v => Host.reduce IntOp.andi x v reducesTo_S4096x4_S_d0_1 h_S_) main_v41 main_c_15
  let main_v43 : IVec S_ 1 := andi main_v38 main_v42
  let main_v44 : FVec F S4 .f32 := Host.absf main_arg9
  let main_cst_16 : FVec F S_ .f32 := constant S_ .f32 0x7F800000#32
  let main_v45 : FVec F S4 .f32 := broadcastInDim S4 ![] bcast_S_S4 main_cst_16
  let main_v46 : IVec S4 1 := cmpf .olt main_v44 main_v45
  let main_c_17 : IVec S_ 1 := constantI S_ 1 1#1
  let main_v47 : IVec S_ 1 := (fun x v => Host.reduce IntOp.andi x v reducesTo_S4_S_d0 h_S_) main_v46 main_c_17
  let main_v48 : IVec S_ 1 := andi main_v43 main_v47
  let main_v49 : FVec F S4096x1 .f32 := Host.absf main_arg10
  let main_cst_18 : FVec F S_ .f32 := constant S_ .f32 0x7F800000#32
  let main_v50 : FVec F S4096x1 .f32 := broadcastInDim S4096x1 ![] bcast_S_S4096x1 main_cst_18
  fn_part3 (F := F) main_arg11 main_v48 main_v49 main_v50

def fn_part1 {F : FTy → Type} [FloatOps F] (main_arg4 : FVec F S4096 .f32) (main_arg5 : FVec F S4096x4096 .f32) (main_arg6 : FVec F S4096x4096 .f32) (main_arg7 : FVec F S1 .f32) (main_arg8 : FVec F S4096x4 .f32) (main_arg9 : FVec F S4 .f32) (main_arg10 : FVec F S4096x1 .f32) (main_arg11 : FVec F S1 .f32) (main_v13 : IVec S_ 1) (main_v16 : IVec S17x4096 1) : IVec S_ 1 :=
  let main_c_5 : IVec S_ 1 := constantI S_ 1 1#1
  let main_v17 : IVec S_ 1 := (fun x v => Host.reduce IntOp.andi x v reducesTo_S17x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1x17 .f32) (main_arg1 : FVec F S1x4096 .f32) (main_arg2 : FVec F S4096x4096 .f32) (main_arg3 : FVec F S17x4096 .f32) (main_arg4 : FVec F S4096 .f32) (main_arg5 : FVec F S4096x4096 .f32) (main_arg6 : FVec F S4096x4096 .f32) (main_arg7 : FVec F S1 .f32) (main_arg8 : FVec F S4096x4 .f32) (main_arg9 : FVec F S4 .f32) (main_arg10 : FVec F S4096x1 .f32) (main_arg11 : FVec F S1 .f32) : IVec S_ 1 :=
  let main_v0 : FVec F S1x17 .f32 := Host.absf main_arg0
  let main_cst : FVec F S_ .f32 := constant S_ .f32 0x7F800000#32
  let main_v1 : FVec F S1x17 .f32 := broadcastInDim S1x17 ![] bcast_S_S1x17 main_cst
  let main_v2 : IVec S1x17 1 := cmpf .olt main_v0 main_v1
  let main_c : IVec S_ 1 := constantI S_ 1 1#1
  let main_v3 : IVec S_ 1 := (fun x v => Host.reduce IntOp.andi x v reducesTo_S1x17_S_d0_1 h_S_) main_v2 main_c
  let main_v4 : FVec F S1x4096 .f32 := Host.absf main_arg1
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S17x4096 .f32 := Host.absf main_arg3
  let main_cst_4 : FVec F S_ .f32 := constant S_ .f32 0x7F800000#32
  let main_v15 : FVec F S17x4096 .f32 := broadcastInDim S17x4096 ![] bcast_S_S17x4096 main_cst_4
  let main_v16 : IVec S17x4096 1 := cmpf .olt main_v14 main_v15
  fn_part1 (F := F) main_arg4 main_arg5 main_arg6 main_arg7 main_arg8 main_arg9 main_arg10 main_arg11 main_v13 main_v16
-- ==== Kernel.lean ====
abbrev S1x17 : Shape := ⟨2, ![1, 17]⟩
abbrev S1x4096 : Shape := ⟨2, ![1, 4096]⟩
abbrev S4096x4096 : Shape := ⟨2, ![4096, 4096]⟩
abbrev S17x4096 : Shape := ⟨2, ![17, 4096]⟩
abbrev S4096 : Shape := ⟨1, ![4096]⟩
abbrev S1 : Shape := ⟨1, ![1]⟩
abbrev S4096x4 : Shape := ⟨2, ![4096, 4]⟩
abbrev S4 : Shape := ⟨1, ![4]⟩
abbrev S4096x1 : Shape := ⟨2, ![4096, 1]⟩
abbrev S1x1 : Shape := ⟨2, ![1, 1]⟩
abbrev S4096x128 : Shape := ⟨2, ![4096, 128]⟩
abbrev S1x128 : Shape := ⟨2, ![1, 128]⟩
abbrev S1x4 : Shape := ⟨2, ![1, 4]⟩
abbrev S_ : Shape := ⟨0, ![]⟩

abbrev nBuf : Space → Nat
  | .hbm => 39
  | .vmem => 15
  | .smem => 0
  | _ => 0

abbrev bufTy : (tb : Table) → Fin (tcTables nBuf tb) → BufTy
  | .hbm, ⟨0, _⟩ => ⟨S1x17, .f32⟩
  | .hbm, ⟨1, _⟩ => ⟨S1x4096, .f32⟩
  | .hbm, ⟨2, _⟩ => ⟨S4096x4096, .f32⟩
  | .hbm, ⟨3, _⟩ => ⟨S17x4096, .f32⟩
  | .hbm, ⟨4, _⟩ => ⟨S4096, .f32⟩
  | .hbm, ⟨5, _⟩ => ⟨S4096x4096, .f32⟩
  | .hbm, ⟨6, _⟩ => ⟨S4096x4096, .f32⟩
  | .hbm, ⟨7, _⟩ => ⟨S1, .f32⟩
  | .hbm, ⟨8, _⟩ => ⟨S4096x4, .f32⟩
  | .hbm, ⟨9, _⟩ => ⟨S4, .f32⟩
  | .hbm, ⟨10, _⟩ => ⟨S4096x1, .f32⟩
  | .hbm, ⟨11, _⟩ => ⟨S1, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S4096x1, .f32⟩
  | .hbm, ⟨16, _⟩ => ⟨S1x1, .f32⟩
  | .hbm, ⟨17, _⟩ => ⟨S1x4096, .f32⟩
  | .hbm, ⟨18, _⟩ => ⟨S4096x4096, .f32⟩
  | .hbm, ⟨19, _⟩ => ⟨S1x4, .f32⟩
  | .hbm, ⟨20, _⟩ => ⟨S1x4, .f32⟩
  | .hbm, ⟨21, _⟩ => ⟨S1x4, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S1, .f32⟩
  | .hbm, ⟨26, _⟩ => ⟨S1, .f32⟩
  | .hbm, ⟨27, _⟩ => ⟨S1x1, .f32⟩
  | .hbm, ⟨28, _⟩ => ⟨S1x4, .f32⟩
  | .hbm, ⟨29, _⟩ => ⟨S1x4, .f32⟩
  | .hbm, ⟨30, _⟩ => ⟨S1x4, .f32⟩
  | .hbm, ⟨31, _⟩ => ⟨S_, .f32⟩
  | .hbm, ⟨32, _⟩ => ⟨S1, .f32⟩
  | .hbm, ⟨33, _⟩ => ⟨S1x1, .f32⟩
  | .hbm, ⟨34, _⟩ => ⟨S1x4, .f32⟩
  | .hbm, ⟨35, _⟩ => ⟨S1x4, .f32⟩
  | .hbm, ⟨36, _⟩ => ⟨S1x1, .f32⟩
  | .hbm, ⟨37, _⟩ => ⟨S1x1, .f32⟩
  | .hbm, ⟨38, _⟩ => ⟨S1x1, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x4096, .f32⟩
  | .local _ .vmem, ⟨7, _⟩ => ⟨S4096x1, .f32⟩
  | .local _ .vmem, ⟨8, _⟩ => ⟨S1x128, .f32⟩
  | .local _ .vmem, ⟨9, _⟩ => ⟨S1x128, .f32⟩
  | .local _ .vmem, ⟨10, _⟩ => ⟨S1x1, .f32⟩
  | .local _ .vmem, ⟨11, _⟩ => ⟨S1x128, .f32⟩
  | .local _ .vmem, ⟨12, _⟩ => ⟨S1x128, .f32⟩
  | .local _ .vmem, ⟨13, _⟩ => ⟨S4096x128, .f32⟩
  | .local _ .vmem, ⟨14, _⟩ => ⟨S4096x128, .f32⟩
  | _, _ => ⟨S1x17, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S4096_S1x4096_1 : S4096.BroadcastsInDim S1x4096 (![1] : Fin 1 → Fin S1x4096.rank)
  shapeCasts_S1x4096_S4096x1 : S1x4096.ShapeCasts S4096x1
  shapeCasts_S1_S1x1 : S1.ShapeCasts S1x1
  inb_S4096x128_S4096x128_0_0 : ∀ a, (![0, 0] : Fin 2 → Nat) a + S4096x128.size a ≤ S4096x128.size a
  h_S4096x128 : 0 < S4096x128.numel
  inb_S1x4096_S1x4096_0_0 : ∀ a, (![0, 0] : Fin 2 → Nat) a + S1x4096.size a ≤ S1x4096.size a
  h_S1x4096 : 0 < S1x4096.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  broadcasts_S1x128_S4096x128 : S1x128.Broadcasts S4096x128
  broadcasts_S1x1_S4096x128 : S1x1.Broadcasts S4096x128
  bcast_S4_S1x4_1 : S4.BroadcastsInDim S1x4 (![1] : Fin 1 → Fin S1x4.rank)
  reducesTo_S1x4_S1_d1 : S1x4.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x4_0_1 : S1x1.BroadcastsInDim S1x4 (![0, 1] : Fin 2 → Fin S1x4.rank)
  bcast_S1_S1x1_1 : S1.BroadcastsInDim S1x1 (![1] : Fin 1 → Fin S1x1.rank)
  dot_S1x17_S17x4096_S1x4096_1_0_0_1_n_n_wf : DotDims.WF S1x17 S17x4096 S1x4096 [1] [0] [0] [1] [] []
  dot_S1x4096_S4096x128_S1x128_1_0_0_1_n_n_wf : DotDims.WF S1x4096 S4096x128 S1x128 [1] [0] [0] [1] [] []
  dot_S1x4096_S4096x4_S1x4_1_0_0_1_n_n_wf : DotDims.WF S1x4096 S4096x4 S1x4 [1] [0] [0] [1] [] []
  dot_S1x4096_S4096x1_S1x1_1_0_0_1_n_n_wf : DotDims.WF S1x4096 S4096x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x4096.size a
  hwx0_0 : ∀ i : grid0.Coords, EltTy.bits .f32 = 32 ∨ (Rect.block (s := S4096x4096) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x4096.size a
  hwx0_1 : ∀ i : grid0.Coords, EltTy.bits .f32 = 32 ∨ (Rect.block (s := S4096x4096) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x4096.size a
  hwx0_2 : ∀ i : grid0.Coords, EltTy.bits .f32 = 32 ∨ (Rect.block (s := S4096x4096) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1.size a ≤ S4096x1.size a
  hwx0_4 : ∀ i : grid0.Coords, EltTy.bits .f32 = 32 ∨ (Rect.block (s := S4096x1) S4096x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x4096.size a
  hwx0_5 : ∀ i : grid0.Coords, EltTy.bits .f32 = 32 ∨ (Rect.block (s := S1x4096) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x4096.size a
  hwx0_7 : ∀ i : grid0.Coords, EltTy.bits .f32 = 32 ∨ (Rect.block (s := S1x4096) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x128.size a ≤ S4096x4096.size a
  hwx0_8 : ∀ i : grid0.Coords, EltTy.bits .f32 = 32 ∨ (Rect.block (s := S4096x4096) S4096x128.size (cc0_transform_8 i) (hinb0_8 i)).WholeWords (EltTy.packing .f32)

variable [Facts₀]

def dot_S1x17_S17x4096_S1x4096_1_0_0_1_n_n : DotDims S1x17 S17x4096 S1x4096 where
  lhsContracting := [1]
  rhsContracting := [0]
  lhsNonContracting := [0]
  rhsNonContracting := [1]
  lhsBatch := []
  rhsBatch := []
  wf := dot_S1x17_S17x4096_S1x4096_1_0_0_1_n_n_wf
def dot_S1x4096_S4096x128_S1x128_1_0_0_1_n_n : DotDims S1x4096 S4096x128 S1x128 where
  lhsContracting := [1]
  rhsContracting := [0]
  lhsNonContracting := [0]
  rhsNonContracting := [1]
  lhsBatch := []
  rhsBatch := []
  wf := dot_S1x4096_S4096x128_S1x128_1_0_0_1_n_n_wf
def dot_S1x4096_S4096x4_S1x4_1_0_0_1_n_n : DotDims S1x4096 S4096x4 S1x4 where
  lhsContracting := [1]
  rhsContracting := [0]
  lhsNonContracting := [0]
  rhsNonContracting := [1]
  lhsBatch := []
  rhsBatch := []
  wf := dot_S1x4096_S4096x4_S1x4_1_0_0_1_n_n_wf
def dot_S1x4096_S4096x1_S1x1_1_0_0_1_n_n : DotDims S1x4096 S4096x1 S1x1 where
  lhsContracting := [1]
  rhsContracting := [0]
  lhsNonContracting := [0]
  rhsNonContracting := [1]
  lhsBatch := []
  rhsBatch := []
  wf := dot_S1x4096_S4096x1_S1x1_1_0_0_1_n_n_wf

abbrev win0_0 : Pipeline.Window sig grid0 :=
  Pipeline.Window.ofSpec (Memref.whole main_arg5) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5_0) S1x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_1) S4096x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1x17 : Shape := ⟨2, ![1, 17]⟩
abbrev S1x4096 : Shape := ⟨2, ![1, 4096]⟩
abbrev S4096x4096 : Shape := ⟨2, ![4096, 4096]⟩
abbrev S17x4096 : Shape := ⟨2, ![17, 4096]⟩
abbrev S4096 : Shape := ⟨1, ![4096]⟩
abbrev S1 : Shape := ⟨1, ![1]⟩
abbrev S4096x4 : Shape := ⟨2, ![4096, 4]⟩
abbrev S4 : Shape := ⟨1, ![4]⟩
abbrev S4096x1 : Shape := ⟨2, ![4096, 1]⟩
abbrev S_ : Shape := ⟨0, ![]⟩
abbrev S1x1 : Shape := ⟨2, ![1, 1]⟩
abbrev S1x4 : Shape := ⟨2, ![1, 4]⟩

abbrev nBuf : Space → Nat
  | .hbm => 57
  | .vmem => 0
  | .smem => 0
  | _ => 0

abbrev bufTy : (tb : Table) → Fin (tcTables nBuf tb) → BufTy
  | .hbm, ⟨0, _⟩ => ⟨S1x17, .f32⟩
  | .hbm, ⟨1, _⟩ => ⟨S1x4096, .f32⟩
  | .hbm, ⟨2, _⟩ => ⟨S4096x4096, .f32⟩
  | .hbm, ⟨3, _⟩ => ⟨S17x4096, .f32⟩
  | .hbm, ⟨4, _⟩ => ⟨S4096, .f32⟩
  | .hbm, ⟨5, _⟩ => ⟨S4096x4096, .f32⟩
  | .hbm, ⟨6, _⟩ => ⟨S4096x4096, .f32⟩
  | .hbm, ⟨7, _⟩ => ⟨S1, .f32⟩
  | .hbm, ⟨8, _⟩ => ⟨S4096x4, .f32⟩
  | .hbm, ⟨9, _⟩ => ⟨S4, .f32⟩
  | .hbm, ⟨10, _⟩ => ⟨S4096x1, .f32⟩
  | .hbm, ⟨11, _⟩ => ⟨S1, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S4096x4096, .f32⟩
  | .hbm, ⟨16, _⟩ => ⟨S4096x4096, .f32⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S_, .f32⟩
  | .hbm, ⟨21, _⟩ => ⟨S1, .f32⟩
  | .hbm, ⟨22, _⟩ => ⟨S1, .f32⟩
  | .hbm, ⟨23, _⟩ => ⟨S1x1, .f32⟩
  | .hbm, ⟨24, _⟩ => ⟨S4096x4096, .f32⟩
  | .hbm, ⟨25, _⟩ => ⟨S4096x4096, .f32⟩
  | .hbm, ⟨26, _⟩ => ⟨S4096, .f32⟩
  | .hbm, ⟨27, _⟩ => ⟨S4096, .f32⟩
  | .hbm, ⟨28, _⟩ => ⟨S4096x1, .f32⟩
  | .hbm, ⟨29, _⟩ => ⟨S1x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S1x1, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S1x4, .f32⟩
  | .hbm, ⟨38, _⟩ => ⟨S1x4, .f32⟩
  | .hbm, ⟨39, _⟩ => ⟨S1x4, .f32⟩
  | .hbm, ⟨40, _⟩ => ⟨S_, .f32⟩
  | .hbm, ⟨41, _⟩ => ⟨S1, .f32⟩
  | .hbm, ⟨42, _⟩ => ⟨S_, .f32⟩
  | .hbm, ⟨43, _⟩ => ⟨S1, .f32⟩
  | .hbm, ⟨44, _⟩ => ⟨S1, .f32⟩
  | .hbm, ⟨45, _⟩ => ⟨S1x1, .f32⟩
  | .hbm, ⟨46, _⟩ => ⟨S1x4, .f32⟩
  | .hbm, ⟨47, _⟩ => ⟨S1x4, .f32⟩
  | .hbm, ⟨48, _⟩ => ⟨S1x4, .f32⟩
  | .hbm, ⟨49, _⟩ => ⟨S_, .f32⟩
  | .hbm, ⟨50, _⟩ => ⟨S1, .f32⟩
  | .hbm, ⟨51, _⟩ => ⟨S1x1, .f32⟩
  | .hbm, ⟨52, _⟩ => ⟨S1x4, .f32⟩
  | .hbm, ⟨53, _⟩ => ⟨S1x4, .f32⟩
  | .hbm, ⟨54, _⟩ => ⟨S1x1, .f32⟩
  | .hbm, ⟨55, _⟩ => ⟨S1x1, .f32⟩
  | .hbm, ⟨56, _⟩ => ⟨S1x1, .f32⟩
  | _, _ => ⟨S1x17, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_0 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_2 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S_S1 : S_.BroadcastsInDim S1 (![] : Fin 0 → Fin S1.rank)
  bcast_S1_S1x1_1 : S1.BroadcastsInDim S1x1 (![1] : Fin 1 → Fin S1x1.rank)
  bcast_S1x1_S4096x4096_0_1 : S1x1.BroadcastsInDim S4096x4096 (![0, 1] : Fin 2 → Fin S4096x4096.rank)
  shapeCasts_S1x4096_S4096 : S1x4096.ShapeCasts S4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S4_S1x4_1 : S4.BroadcastsInDim S1x4 (![1] : Fin 1 → Fin S1x4.rank)
  reducesTo_S1x4_S1_d1 : S1x4.ReducesTo [1] S1
  h_S_ : 0 < S_.numel
  bcast_S1_S1x1_0 : S1.BroadcastsInDim S1x1 (![0] : Fin 1 → Fin S1x1.rank)
  bcast_S1x1_S1x4_0_1 : S1x1.BroadcastsInDim S1x4 (![0, 1] : Fin 2 → Fin S1x4.rank)
  dot_S1x17_S17x4096_S1x4096_1_0_0_1_n_n_wf : DotDims.WF S1x17 S17x4096 S1x4096 [1] [0] [0] [1] [] []
  dot_S1x4096_S4096x4096_S1x4096_1_0_0_1_n_n_wf : DotDims.WF S1x4096 S4096x4096 S1x4096 [1] [0] [0] [1] [] []
  dot_S1x4096_S4096x4_S1x4_1_0_0_1_n_n_wf : DotDims.WF S1x4096 S4096x4 S1x4 [1] [0] [0] [1] [] []
  dot_S1x4096_S4096x1_S1x1_1_0_0_1_n_n_wf : DotDims.WF S1x4096 S4096x1 S1x1 [1] [0] [0] [1] [] []

variable [Facts₀]

def dot_S1x17_S17x4096_S1x4096_1_0_0_1_n_n : DotDims S1x17 S17x4096 S1x4096 where
  lhsContracting := [1]
  rhsContracting := [0]
  lhsNonContracting := [0]
  rhsNonContracting := [1]
  lhsBatch := []
  rhsBatch := []
  wf := dot_S1x17_S17x4096_S1x4096_1_0_0_1_n_n_wf
def dot_S1x4096_S4096x4096_S1x4096_1_0_0_1_n_n : DotDims S1x4096 S4096x4096 S1x4096 where
  lhsContracting := [1]
  rhsContracting := [0]
  lhsNonContracting := [0]
  rhsNonContracting := [1]
  lhsBatch := []
  rhsBatch := []
  wf := dot_S1x4096_S4096x4096_S1x4096_1_0_0_1_n_n_wf
def dot_S1x4096_S4096x4_S1x4_1_0_0_1_n_n : DotDims S1x4096 S4096x4 S1x4 where
  lhsContracting := [1]
  rhsContracting := [0]
  lhsNonContracting := [0]
  rhsNonContracting := [1]
  lhsBatch := []
  rhsBatch := []
  wf := dot_S1x4096_S4096x4_S1x4_1_0_0_1_n_n_wf
def dot_S1x4096_S4096x1_S1x1_1_0_0_1_n_n : DotDims S1x4096 S4096x1 S1x1 where
  lhsContracting := [1]
  rhsContracting := [0]
  lhsNonContracting := [0]
  rhsNonContracting := [1]
  lhsBatch := []
  rhsBatch := []
  wf := dot_S1x4096_S4096x1_S1x1_1_0_0_1_n_n_wf

class Facts : Prop extends Facts₀ where

variable [Facts]
-- ==== Proof.HebbSpec.lean ====
/-
  One step of a recurrent layer whose weights carry a Hebbian trace, as functions of the argument arrays over the
  extended reals. With H = 4096 hidden units and 17 inputs:

    drive j   = (sum over k < 17 of x[0,k] * Wi[k,j]) + bi[j]                       the input's drive of unit j
    recur j   = sum over k < H of hidden[0,k] * (w[k,j] + alpha[k,j] * hebb[k,j])   the drive through the plastic weights
    act j     = tanh (drive j + recur j)                                            the unit's new activation
    trace i j = (1 - eta) * hebb[i,j] + eta * (hidden[0,i] * act j)                 the trace's new entry

  `hactiv` is the row of activations and `hebbNew` the updated trace. The constant 1 is kept as its 32-bit word: both
  programs carry the same word, so it is never evaluated.
-/
import Idealize.ShloMosaic.Lib.ValueIdx
import Idealize.ShloMosaic.PureOps.Ideal

noncomputable section

namespace Cert.Hebb

open Idealize.ShloMosaic Idealize.ShloMosaic.ValueIdx

/-- The input's drive of hidden unit `j`: the input row against column `j` of the input weights, plus the bias. -/
def drive (x : FVec Ideal ⟨2, ![1, 17]⟩ .f32) (Wi : FVec Ideal ⟨2, ![17, 4096]⟩ .f32) (bi : FVec Ideal ⟨1, ![4096]⟩ .f32)
    (j : Fin 4096) : EReal :=
  (∑ k : Fin 17, x (ix2 0 k) * Wi (ix2 k j)) + bi (ix1 j)

/-- The recurrent drive of hidden unit `j`: the previous hidden row against column `j` of the plastic weights
    `w + alpha * hebb` (entrywise). -/
def recur (hidden : FVec Ideal ⟨2, ![1, 4096]⟩ .f32) (w alpha hebb : FVec Ideal ⟨2, ![4096, 4096]⟩ .f32) (j : Fin 4096) : EReal :=
  ∑ k : Fin 4096, hidden (ix2 0 k) * (w (ix2 k j) + alpha (ix2 k j) * hebb (ix2 k j))

/-- Hidden unit `j`'s new activation. -/
def act (x : FVec Ideal ⟨2, ![1, 17]⟩ .f32) (hidden : FVec Ideal ⟨2, ![1, 4096]⟩ .f32) (hebb : FVec Ideal ⟨2, ![4096, 4096]⟩ .f32)
    (Wi : FVec Ideal ⟨2, ![17, 4096]⟩ .f32) (bi : FVec Ideal ⟨1, ![4096]⟩ .f32) (w alpha : FVec Ideal ⟨2, ![4096, 4096]⟩ .f32)
    (j : Fin 4096) : EReal :=
  Ideal.tanh (drive x Wi bi j + recur hidden w alpha hebb j)

/-- The row of new activations. -/
def hactiv (x : FVec Ideal ⟨2, ![1, 17]⟩ .f32) (hidden : FVec Ideal ⟨2, ![1, 4096]⟩ .f32) (hebb : FVec Ideal ⟨2, ![4096, 4096]⟩ .f32)
    (Wi : FVec Ideal ⟨2, ![17, 4096]⟩ .f32) (bi : FVec Ideal ⟨1, ![4096]⟩ .f32) (w alpha : FVec Ideal ⟨2, ![4096, 4096]⟩ .f32) :
    FVec Ideal ⟨2, ![1, 4096]⟩ .f32 :=
  fun i => act x hidden hebb Wi bi w alpha (i 1)

/-- The updated trace: each entry decays by `1 - eta` and gains `eta` times the product of the previous activation of
    its row's unit and the new activation of its column's unit. -/
def hebbNew (x : FVec Ideal ⟨2, ![1, 17]⟩ .f32) (hidden : FVec Ideal ⟨2, ![1, 4096]⟩ .f32) (hebb : FVec Ideal ⟨2, ![4096, 4096]⟩ .f32)
    (Wi : FVec Ideal ⟨2, ![17, 4096]⟩ .f32) (bi : FVec Ideal ⟨1, ![4096]⟩ .f32) (w alpha : FVec Ideal ⟨2, ![4096, 4096]⟩ .f32)
    (eta : FVec Ideal ⟨1, ![1]⟩ .f32) : FVec Ideal ⟨2, ![4096, 4096]⟩ .f32 :=
  fun i => (Ideal.ofBits .f32 0x3F800000#32 - eta (ix1 0)) * hebb i
    + eta (ix1 0) * (hidden (ix2 0 (i 0)) * act x hidden hebb Wi bi w alpha (i 1))

theorem hactiv_apply (x : FVec Ideal ⟨2, ![1, 17]⟩ .f32) (hidden : FVec Ideal ⟨2, ![1, 4096]⟩ .f32) (hebb : FVec Ideal ⟨2, ![4096, 4096]⟩ .f32)
    (Wi : FVec Ideal ⟨2, ![17, 4096]⟩ .f32) (bi : FVec Ideal ⟨1, ![4096]⟩ .f32) (w alpha : FVec Ideal ⟨2, ![4096, 4096]⟩ .f32)
    (p : Fin 1) (j : Fin 4096) : hactiv x hidden hebb Wi bi w alpha (ix2 p j) = act x hidden hebb Wi bi w alpha j := rfl

theorem hebbNew_apply (x : FVec Ideal ⟨2, ![1, 17]⟩ .f32) (hidden : FVec Ideal ⟨2, ![1, 4096]⟩ .f32) (hebb : FVec Ideal ⟨2, ![4096, 4096]⟩ .f32)
    (Wi : FVec Ideal ⟨2, ![17, 4096]⟩ .f32) (bi : FVec Ideal ⟨1, ![4096]⟩ .f32) (w alpha : FVec Ideal ⟨2, ![4096, 4096]⟩ .f32)
    (eta : FVec Ideal ⟨1, ![1]⟩ .f32) (i j : Fin 4096) :
    hebbNew x hidden hebb Wi bi w alpha eta (ix2 i j)
      = (Ideal.ofBits .f32 0x3F800000#32 - eta (ix1 0)) * hebb (ix2 i j)
        + eta (ix1 0) * (hidden (ix2 0 i) * act x hidden hebb Wi bi w alpha j) := rfl

end Cert.Hebb

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.HebbTile.lean ====
/-
  One column tile of the kernel, read at an entry over the extended reals. A tile is 128 columns of the 4096 hidden
  units; the kernel holds the whole contracted axis (all 4096 rows of w, alpha and the trace) for those columns, so
  the tile's activations are complete sums:

    activation tile at lane q  = tanh ((sum over k of hidden[0,k] * (wT[k,q] + aT[k,q] * hT[k,q])) + drive[0,q])
    trace tile at (p, q)       = (1 - eta) * hT[p,q] + eta * (hiddenCol[p,0] * activation tile at lane q)

  The narrowing of the two matrix operands to a 16-bit format is the identity on extended reals, and the product into
  a zero accumulator is the plain sum over the contracted coordinate.
-/
import proofs.«100540_j32358283608359_1_alg».proof.Proof.Gen.KernelIdeal.Skeleton
import proofs.«100540_j32358283608359_1_alg».proof.Proof.LibPlainProduct
import Idealize.ShloMosaic.Lib.Pipeline.Value
import Idealize.ShloMosaic.Lib.ValueIdx

noncomputable section

namespace Cert.Hebb.Tile

open Cert.KernelIdeal Cert.KernelIdeal.Gen Idealize.ShloMosaic Idealize.ShloMosaic.ValueIdx

/-! ## The tile's three broadcasts, read at an entry -/

/-- A column [4096,1] spread over the tile's lanes reads its row's entry. -/
theorem spread_col {α : Type} (v : S4096x1.Idx → α) (h : S4096x1.Broadcasts S4096x128) (p : Fin 4096) (q : Fin 128) :
    broadcastTo S4096x128 v h (ix2 p q) = v (ix2 p 0) :=
  broadcastTo_apply v h (ix2 p q) (ix2 p 0) (fun a => match a with
    | ⟨0, _⟩ => by show p.val = if (4096 : Nat) = 1 then 0 else p.val; rw [if_neg (by decide)]
    | ⟨1, _⟩ => by show 0 = if (1 : Nat) = 1 then 0 else q.val; rw [if_pos rfl])

/-- A row [1,128] spread over the tile's rows reads its lane's entry. -/
theorem spread_row {α : Type} (v : S1x128.Idx → α) (h : S1x128.Broadcasts S4096x128) (p : Fin 4096) (q : Fin 128) :
    broadcastTo S4096x128 v h (ix2 p q) = v (ix2 0 q) :=
  broadcastTo_apply v h (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- A single entry [1,1] spread over the tile reads that entry. -/
theorem spread_one {α : Type} (v : S1x1.Idx → α) (h : S1x1.Broadcasts S4096x128) (p : Fin 4096) (q : Fin 128) :
    broadcastTo S4096x128 v h (ix2 p q) = v (ix2 0 0) :=
  broadcastTo_apply v h (ix2 p q) (ix2 0 0) (fun a => match a with
    | ⟨0, _⟩ => by show 0 = if (1 : Nat) = 1 then 0 else p.val; rw [if_pos rfl]
    | ⟨1, _⟩ => by show 0 = if (1 : Nat) = 1 then 0 else q.val; rw [if_pos rfl])

/-! ## The two stored values -/

/-- The activation tile at lane `q`: the hidden row against column `q` of the tile's plastic weights, plus the drive, under tanh. -/
theorem act_tile_apply (wT aT hT : Vec Ideal S4096x128 .f32) (hid : Vec Ideal S1x4096 .f32) (dr : Vec Ideal S1x128 .f32) (q : Fin 128) :
    k0_pay1 (F := Ideal) wT aT hT hid dr (ix2 0 q)
      = Ideal.tanh ((∑ k : Fin 4096, hid (ix2 0 k) * (wT (ix2 k q) + aT (ix2 k q) * hT (ix2 k q))) + dr (ix2 0 q)) := by
  unfold k0_pay1
  refine congrArg Ideal.tanh (congrArg₂ (· + ·) ?_ ?_)
  · exact Cert.PlainProduct.matmul_zero_apply (M := 1) (K := 4096) (N := 128) none
      (truncf .bf16 hid bitsLt_bf16_f32) (truncf .bf16 (addf wT (mulf aT hT)) bitsLt_bf16_f32) 0 q
  · exact congrFun (shapeCast_self dr shapeCasts_S1x128_S1x128) (ix2 0 q)

/-- The trace tile at `(p, q)`: the old entry decayed by `1 - eta`, plus `eta` times the product of row `p`'s previous
    activation and lane `q`'s new one. -/
theorem trace_tile_apply (wT aT hT : Vec Ideal S4096x128 .f32) (hid : Vec Ideal S1x4096 .f32) (dr : Vec Ideal S1x128 .f32)
    (et : Vec Ideal S1x1 .f32) (hc : Vec Ideal S4096x1 .f32) (p : Fin 4096) (q : Fin 128) :
    k0_pay2 (F := Ideal) wT aT hT hid dr et hc (ix2 p q)
      = (Ideal.ofBits .f32 0x3F800000#32 - et (ix2 0 0)) * hT (ix2 p q)
        + et (ix2 0 0) * (hc (ix2 p 0) * k0_pay1 (F := Ideal) wT aT hT hid dr (ix2 0 q)) := by
  unfold k0_pay2
  refine congrArg₂ (· + ·) (congrArg₂ (· * ·) ?_ rfl) (congrArg₂ (· * ·) ?_ (congrArg₂ (· * ·) ?_ ?_))
  · refine (spread_one _ broadcasts_S1x1_S4096x128 p q).trans ?_
    exact congrArg (fun z => Ideal.ofBits .f32 0x3F800000#32 - z) (congrFun (shapeCast_self et shapeCasts_S1x1_S1x1) (ix2 0 0))
  · refine (spread_one _ broadcasts_S1x1_S4096x128 p q).trans ?_
    exact congrFun (shapeCast_self et shapeCasts_S1x1_S1x1) (ix2 0 0)
  · refine (spread_col _ broadcasts_S4096x1_S4096x128 p q).trans ?_
    exact congrFun (shapeCast_self hc shapeCasts_S4096x1_S4096x1) (ix2 p 0)
  · exact spread_row _ broadcasts_S1x128_S4096x128 p q

end Cert.Hebb.Tile

end
-- ==== Proof.HebbKernelValue.lean ====
/-
  What the kernel's four results hold after its run, over the extended reals.
  The grid has 32 points; point t works on columns 128 t … 128 t + 127 of w, alpha and the trace (all 4096 rows),
  on the same columns of the input drive, and on the whole hidden row, the whole hidden column and the one entry eta.
  It writes columns 128 t … 128 t + 127 of the activations and of the updated trace. The 32 column blocks tile both
  output arrays, so after the run they hold the specification's row and trace; the two heads after the region read
  the activations' array.
-/
import proofs.«100540_j32358283608359_1_alg».proof.Proof.Gen.KernelIdeal.Frame
import proofs.«100540_j32358283608359_1_alg».proof.Proof.HebbSpec
import proofs.«100540_j32358283608359_1_alg».proof.Proof.HebbTile
import proofs.«100540_j32358283608359_1_alg».proof.Proof.LibPlainProduct
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Hebb.Kernel

open Cert.KernelIdeal Cert.KernelIdeal.Gen

variable (m : (ℓ : Loc nD τ sig) → Buf (Elt Ideal) ℓ) (ρ : Dev nD → PrngReg)

/-! ## The index maps over the grid -/

/-- Point `t` reads and writes column block `t` of the tiled arrays and block (0, 0) of the three whole ones. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = 0
    ∧ win0_7.index t (0 : Fin 2) = 0 ∧ win0_7.index t (1 : Fin 2) = t.val
    ∧ win0_8.index t (0 : Fin 2) = 0 ∧ win0_8.index t (1 : Fin 2) = t.val :=
  (by decide +kernel : ∀ t : Fin grid0.N, _)

theorem point_lt (t : Fin cfg0.N) : t.val < 32 := lt_of_lt_of_eq t.isLt N_0

/-! ## The argument arrays as launched, at their literal types -/

abbrev argX (c : Dev nD) : FVec Ideal S1x17 .f32 := m ((c : Thread nD τ).loc main_arg0)
abbrev argHidden (c : Dev nD) : FVec Ideal S1x4096 .f32 := m ((c : Thread nD τ).loc main_arg1)
abbrev argHebb (c : Dev nD) : FVec Ideal S4096x4096 .f32 := m ((c : Thread nD τ).loc main_arg2)
abbrev argWi (c : Dev nD) : FVec Ideal S17x4096 .f32 := m ((c : Thread nD τ).loc main_arg3)
abbrev argBi (c : Dev nD) : FVec Ideal S4096 .f32 := m ((c : Thread nD τ).loc main_arg4)
abbrev argW (c : Dev nD) : FVec Ideal S4096x4096 .f32 := m ((c : Thread nD τ).loc main_arg5)
abbrev argAlpha (c : Dev nD) : FVec Ideal S4096x4096 .f32 := m ((c : Thread nD τ).loc main_arg6)
abbrev argEta (c : Dev nD) : FVec Ideal S1 .f32 := m ((c : Thread nD τ).loc main_arg7)
abbrev argWo (c : Dev nD) : FVec Ideal S4096x4 .f32 := m ((c : Thread nD τ).loc main_arg8)
abbrev argBo (c : Dev nD) : FVec Ideal S4 .f32 := m ((c : Thread nD τ).loc main_arg9)
abbrev argWv (c : Dev nD) : FVec Ideal S4096x1 .f32 := m ((c : Thread nD τ).loc main_arg10)
abbrev argBv (c : Dev nD) : FVec Ideal S1 .f32 := m ((c : Thread nD τ).loc main_arg11)

/-! ## The three arrays the host lines before the region make -/

/-- The input drive's array: the input row times the input weights, plus the bias spread along the row. -/
theorem drive_arr (c : Dev nD) :
    (V m c main_v2 : S1x4096.Idx → EReal)
      = addf (Host.dotGeneral (F := Ideal) dot_S1x17_S17x4096_S1x4096_1_0_0_1_n_n none (argX m c) (argWi m c))
          (broadcastInDim S1x4096 ![1] bcast_S4096_S1x4096_1 (argBi m c)) := by
  show StableHlo.after hostOps0 (fun b => m (c, b)) (Proc.devRef .tc main_v2) = _
  after_results

/-- The hidden row laid out as a column. -/
theorem hiddenCol_arr (c : Dev nD) :
    (V m c main_v3 : S4096x1.Idx → EReal) = shapeCast _ (argHidden m c) shapeCasts_S1x4096_S4096x1 := by
  show StableHlo.after hostOps0 (fun b => m (c, b)) (Proc.devRef .tc main_v3) = _
  after_results
  rfl

/-- The rate eta as a one-entry matrix. -/
theorem eta_arr (c : Dev nD) :
    (V m c main_v4 : S1x1.Idx → EReal) = shapeCast _ (argEta m c) shapeCasts_S1_S1x1 := by
  show StableHlo.after hostOps0 (fun b => m (c, b)) (Proc.devRef .tc main_v4) = _
  after_results
  rfl

/-! ## Each window's block at a point, as entries of the argument arrays

A block's coordinate along an axis is (block index) * (block extent) + (coordinate inside the block). -/

/-- Window 0 at point `t`: columns 128 t … of `w`. -/
theorem wBlock_apply (c : Dev nD) (t : Fin cfg0.N) (y : S4096x128.Idx) (k : S4096x4096.Idx)
    (hk0 : (k 0).val = (y 0).val) (hk1 : (k 1).val = 128 * t.val + (y 1).val) :
    (iblk m c 0 t : Vec Ideal S4096x128 .f32) y = argW m c k := by
  obtain ⟨e0, e1, -⟩ := idx_facts t
  unfold iblk
  rw [View.read_apply]
  show V m c main_arg5 _ = m (c.tc.loc main_arg5) _
  rw [V_main_arg5]
  congr 1
  funext a
  apply Fin.ext
  match a with
  | ⟨0, _⟩ => show win0_0.index t (0 : Fin 2) * 4096 + 1 * (y 0).val = (k 0).val; rw [e0, hk0]; omega
  | ⟨1, _⟩ => show win0_0.index t (1 : Fin 2) * 128 + 1 * (y 1).val = (k 1).val; rw [e1, hk1]; omega

/-- Window 1 at point `t`: columns 128 t … of `alpha`. -/
theorem alphaBlock_apply (c : Dev nD) (t : Fin cfg0.N) (y : S4096x128.Idx) (k : S4096x4096.Idx)
    (hk0 : (k 0).val = (y 0).val) (hk1 : (k 1).val = 128 * t.val + (y 1).val) :
    (iblk m c 1 t : Vec Ideal S4096x128 .f32) y = argAlpha m c k := by
  obtain ⟨-, -, e0, e1, -⟩ := idx_facts t
  unfold iblk
  rw [View.read_apply]
  show V m c main_arg6 _ = m (c.tc.loc main_arg6) _
  rw [V_main_arg6]
  congr 1
  funext a
  apply Fin.ext
  match a with
  | ⟨0, _⟩ => show win0_1.index t (0 : Fin 2) * 4096 + 1 * (y 0).val = (k 0).val; rw [e0, hk0]; omega
  | ⟨1, _⟩ => show win0_1.index t (1 : Fin 2) * 128 + 1 * (y 1).val = (k 1).val; rw [e1, hk1]; omega

/-- Window 2 at point `t`: columns 128 t … of the trace. -/
theorem hebbBlock_apply (c : Dev nD) (t : Fin cfg0.N) (y : S4096x128.Idx) (k : S4096x4096.Idx)
    (hk0 : (k 0).val = (y 0).val) (hk1 : (k 1).val = 128 * t.val + (y 1).val) :
    (iblk m c 2 t : Vec Ideal S4096x128 .f32) y = argHebb m c k := by
  obtain ⟨-, -, -, -, e0, e1, -⟩ := idx_facts t
  unfold iblk
  rw [View.read_apply]
  show V m c main_arg2 _ = m (c.tc.loc main_arg2) _
  rw [V_main_arg2]
  congr 1
  funext a
  apply Fin.ext
  match a with
  | ⟨0, _⟩ => show win0_2.index t (0 : Fin 2) * 4096 + 1 * (y 0).val = (k 0).val; rw [e0, hk0]; omega
  | ⟨1, _⟩ => show win0_2.index t (1 : Fin 2) * 128 + 1 * (y 1).val = (k 1).val; rw [e1, hk1]; omega

/-- Window 3 at any point: the whole hidden row. -/
theorem hiddenBlock_apply (c : Dev nD) (t : Fin cfg0.N) (y : S1x4096.Idx) :
    (iblk m c 3 t : Vec Ideal S1x4096 .f32) y = argHidden m c y := by
  obtain ⟨-, -, -, -, -, -, e0, e1, -⟩ := idx_facts t
  unfold iblk
  rw [View.read_apply]
  show V m c main_arg1 _ = m (c.tc.loc main_arg1) _
  rw [V_main_arg1]
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 4096 + 1 * (y 1).val = (y 1).val; rw [e1]; omega

/-- The input drive's array at column `j` is the specification's drive of unit `j`. -/
theorem drive_arr_apply (c : Dev nD) (j : Fin 4096) :
    (V m c main_v2 : S1x4096.Idx → EReal) (ix2 0 j) = Cert.Hebb.drive (argX m c) (argWi m c) (argBi m c) j := by
  rw [drive_arr]
  unfold Cert.Hebb.drive
  refine congrArg₂ (· + ·) ?_ ?_
  · exact Cert.PlainProduct.dotGeneral_apply (M := 1) (K := 17) (N := 4096) none (argX m c) (argWi m c) 0 j
  · exact broadcastInDim_apply ![1] bcast_S4096_S1x4096_1 (argBi m c) (ix2 0 j) (ix1 j) (fun a => match a with
      | ⟨0, _⟩ => by show j.val = if (4096 : Nat) = 1 then 0 else j.val; rw [if_neg (by decide)])

/-- Window 5 at point `t`: columns 128 t … of the input drive. -/
theorem driveBlock_apply (c : Dev nD) (t : Fin cfg0.N) (q : Fin 128) (j : Fin 4096) (hj : j.val = 128 * t.val + q.val) :
    (iblk m c 5 t : Vec Ideal S1x128 .f32) (ix2 0 q) = Cert.Hebb.drive (argX m c) (argWi m c) (argBi m c) j := by
  obtain ⟨-, -, -, -, -, -, -, -, -, -, e0, e1, -⟩ := idx_facts t
  unfold iblk
  rw [View.read_apply, ← drive_arr_apply]
  show V m c main_v2 _ = V m c main_v2 _
  congr 1
  funext a
  apply Fin.ext
  match a with
  | ⟨0, _⟩ => show win0_5.index t (0 : Fin 2) * 1 + 1 * 0 = 0; rw [e0]
  | ⟨1, _⟩ => show win0_5.index t (1 : Fin 2) * 128 + 1 * q.val = j.val; rw [e1, hj]; omega

/-- Window 4 at any point: the hidden row as a column; its row `p` is the hidden row's entry `p`. -/
theorem hiddenColBlock_apply (c : Dev nD) (t : Fin cfg0.N) (p : Fin 4096) :
    (iblk m c 4 t : Vec Ideal S4096x1 .f32) (ix2 p 0) = argHidden m c (ix2 0 p) := by
  obtain ⟨-, -, -, -, -, -, -, -, e0, e1, -⟩ := idx_facts t
  unfold iblk
  rw [View.read_apply]
  show V m c main_v3 _ = _
  rw [hiddenCol_arr]
  refine shapeCast_apply (argHidden m c) shapeCasts_S1x4096_S4096x1 _ (ix2 0 p) ?_
  rewrite [Shape.rowMajor_val_two, Shape.rowMajor_val_two]
  show 0 * 4096 + p.val = (win0_4.index t (0 : Fin 2) * 4096 + 1 * p.val) * 1 + (win0_4.index t (1 : Fin 2) * 1 + 1 * 0)
  rw [e0, e1]; omega

/-- Window 6 at any point: the one entry eta. -/
theorem etaBlock_apply (c : Dev nD) (t : Fin cfg0.N) :
    (iblk m c 6 t : Vec Ideal S1x1 .f32) (ix2 0 0) = argEta m c (ix1 0) := by
  obtain ⟨-, -, -, -, -, -, -, -, -, -, -, -, e0, e1, -⟩ := idx_facts t
  unfold iblk
  rw [View.read_apply]
  show V m c main_v4 _ = _
  rw [eta_arr]
  refine shapeCast_apply (argEta m c) shapeCasts_S1_S1x1 _ (ix1 0) ?_
  rewrite [Shape.rowMajor_val_one, Shape.rowMajor_val_two]
  show 0 = (win0_6.index t (0 : Fin 2) * 1 + 1 * 0) * 1 + (win0_6.index t (1 : Fin 2) * 1 + 1 * 0)
  rw [e0, e1]

/-! ## One point's two stored tiles against the specification, over tiles and arrays of the literal types -/

/-- If lane `q` of the tile is column `j` of the arrays, the activation tile's lane `q` is unit `j`'s activation:
    the kernel adds the drive after the product, the specification before, and addition commutes. -/
theorem act_point (wT aT hT : Vec Ideal S4096x128 .f32) (hid : Vec Ideal S1x4096 .f32) (dr : Vec Ideal S1x128 .f32)
    (x : FVec Ideal S1x17 .f32) (hidden : FVec Ideal S1x4096 .f32) (hebb : FVec Ideal S4096x4096 .f32)
    (Wi : FVec Ideal S17x4096 .f32) (bi : FVec Ideal S4096 .f32) (w alpha : FVec Ideal S4096x4096 .f32)
    (j : Fin 4096) (q : Fin 128)
    (hw : ∀ k : Fin 4096, wT (ix2 k q) = w (ix2 k j)) (ha : ∀ k : Fin 4096, aT (ix2 k q) = alpha (ix2 k j))
    (hh : ∀ k : Fin 4096, hT (ix2 k q) = hebb (ix2 k j)) (hhid : ∀ k : Fin 4096, hid (ix2 0 k) = hidden (ix2 0 k))
    (hdr : dr (ix2 0 q) = Cert.Hebb.drive x Wi bi j) :
    k0_pay1 (F := Ideal) wT aT hT hid dr (ix2 0 q) = Cert.Hebb.act x hidden hebb Wi bi w alpha j := by
  rw [Cert.Hebb.Tile.act_tile_apply, hdr, add_comm]
  unfold Cert.Hebb.act Cert.Hebb.recur
  refine congrArg Ideal.tanh (congrArg (Cert.Hebb.drive x Wi bi j + ·) ?_)
  exact Finset.sum_congr rfl fun k _ => by rw [hw, ha, hh, hhid]

/-- Under the same reading of the tile, and with the hidden column and eta read off their arrays, the trace tile's
    entry `(p, q)` is the updated trace's entry `(p, j)`. -/
theorem trace_point (wT aT hT : Vec Ideal S4096x128 .f32) (hid : Vec Ideal S1x4096 .f32) (dr : Vec Ideal S1x128 .f32)
    (et : Vec Ideal S1x1 .f32) (hc : Vec Ideal S4096x1 .f32)
    (x : FVec Ideal S1x17 .f32) (hidden : FVec Ideal S1x4096 .f32) (hebb : FVec Ideal S4096x4096 .f32)
    (Wi : FVec Ideal S17x4096 .f32) (bi : FVec Ideal S4096 .f32) (w alpha : FVec Ideal S4096x4096 .f32) (eta : FVec Ideal S1 .f32)
    (p j : Fin 4096) (q : Fin 128)
    (hw : ∀ k : Fin 4096, wT (ix2 k q) = w (ix2 k j)) (ha : ∀ k : Fin 4096, aT (ix2 k q) = alpha (ix2 k j))
    (hh : ∀ k : Fin 4096, hT (ix2 k q) = hebb (ix2 k j)) (hhid : ∀ k : Fin 4096, hid (ix2 0 k) = hidden (ix2 0 k))
    (hdr : dr (ix2 0 q) = Cert.Hebb.drive x Wi bi j) (het : et (ix2 0 0) = eta (ix1 0)) (hhc : hc (ix2 p 0) = hidden (ix2 0 p)) :
    k0_pay2 (F := Ideal) wT aT hT hid dr et hc (ix2 p q) = Cert.Hebb.hebbNew x hidden hebb Wi bi w alpha eta (ix2 p j) := by
  rw [Cert.Hebb.Tile.trace_tile_apply, act_point wT aT hT hid dr x hidden hebb Wi bi w alpha j q hw ha hh hhid hdr, het, hhc, hh p]
  rfl

/-! ## What a point writes back, and the arrays after the run -/

theorem hz : (![0, 0] : Fin 2 → Nat) = fun _ => 0 := funext fun a => by fin_cases a <;> rfl

/-- The specification's activations of the launched arguments. -/
abbrev specAct (c : Dev nD) : FVec Ideal S1x4096 .f32 :=
  Cert.Hebb.hactiv (argX m c) (argHidden m c) (argHebb m c) (argWi m c) (argBi m c) (argW m c) (argAlpha m c)

/-- The specification's updated trace of the launched arguments. -/
abbrev specTrace (c : Dev nD) : FVec Ideal S4096x4096 .f32 :=
  Cert.Hebb.hebbNew (argX m c) (argHidden m c) (argHebb m c) (argWi m c) (argBi m c) (argW m c) (argAlpha m c) (argEta m c)

/-- Point `t` writes back columns 128 t … 128 t + 127 of the specification's activations. -/
theorem flushedAct_eq (c : Dev nD) (t : Fin cfg0.N) :
    (dats m 0 c).flushed 7 t = ((cfg0.win 7).blk t).view.read (Elt Ideal) (specAct m c) := by
  show (cfg0.win 7).cut (grid0.coords t) ((dats m 0 c).after 7 t) = _
  rw [after0_7]
  unfold out0_7
  rw [View.canon_unit_zero hz]
  simp only [View.ld_unit_zero (S := S4096x128) hz, View.ld_unit_zero (S := S1x4096) hz, View.ld_unit_zero (S := S1x128) hz]
  have ht := point_lt t
  obtain ⟨-, -, -, -, -, -, -, -, -, -, -, -, -, -, e0, e1, -⟩ := idx_facts t
  funext y
  obtain ⟨p, q, rfl⟩ : ∃ (p : Fin 1) (q : Fin 128), y = ix2 p q := ⟨y 0, y 1, eq_ix2 y⟩
  obtain rfl : p = 0 := Subsingleton.elim _ _
  have hq := q.isLt
  have hj : 128 * t.val + q.val < 4096 := by omega
  rw [View.read_apply]
  have hemb : ((cfg0.win 7).blk t).view.emb (ix2 (0 : Fin 1) q) = ix2 (0 : Fin 1) (⟨128 * t.val + q.val, hj⟩ : Fin 4096) := by
    funext a
    apply Fin.ext
    match a with
    | ⟨0, _⟩ => show win0_7.index t (0 : Fin 2) * 1 + 1 * 0 = 0; rw [e0]
    | ⟨1, _⟩ => show win0_7.index t (1 : Fin 2) * 128 + 1 * q.val = 128 * t.val + q.val; rw [e1]; omega
  rw [hemb]
  show k0_pay1 (F := Ideal) (iblk m c 0 t) (iblk m c 1 t) (iblk m c 2 t) (iblk m c 3 t) (iblk m c 5 t) (ix2 0 q) = _
  exact act_point (iblk m c 0 t) (iblk m c 1 t) (iblk m c 2 t) (iblk m c 3 t) (iblk m c 5 t)
    (argX m c) (argHidden m c) (argHebb m c) (argWi m c) (argBi m c) (argW m c) (argAlpha m c) ⟨128 * t.val + q.val, hj⟩ q
    (fun k => wBlock_apply m c t (ix2 k q) (ix2 k ⟨128 * t.val + q.val, hj⟩) rfl rfl)
    (fun k => alphaBlock_apply m c t (ix2 k q) (ix2 k ⟨128 * t.val + q.val, hj⟩) rfl rfl)
    (fun k => hebbBlock_apply m c t (ix2 k q) (ix2 k ⟨128 * t.val + q.val, hj⟩) rfl rfl)
    (fun k => hiddenBlock_apply m c t (ix2 0 k))
    (driveBlock_apply m c t q ⟨128 * t.val + q.val, hj⟩ rfl)

/-- Point `t` writes back columns 128 t … 128 t + 127 of the specification's updated trace. -/
theorem flushedTrace_eq (c : Dev nD) (t : Fin cfg0.N) :
    (dats m 0 c).flushed 8 t = ((cfg0.win 8).blk t).view.read (Elt Ideal) (specTrace m c) := by
  show (cfg0.win 8).cut (grid0.coords t) ((dats m 0 c).after 8 t) = _
  rw [after0_8]
  unfold out0_8
  rw [View.canon_unit_zero hz]
  simp only [View.ld_unit_zero (S := S4096x128) hz, View.ld_unit_zero (S := S1x4096) hz, View.ld_unit_zero (S := S1x128) hz,
    View.ld_unit_zero (S := S1x1) hz, View.ld_unit_zero (S := S4096x1) hz]
  have ht := point_lt t
  obtain ⟨-, -, -, -, -, -, -, -, -, -, -, -, -, -, -, -, e0, e1⟩ := idx_facts t
  funext y
  obtain ⟨p, q, rfl⟩ : ∃ (p : Fin 4096) (q : Fin 128), y = ix2 p q := ⟨y 0, y 1, eq_ix2 y⟩
  have hq := q.isLt
  have hj : 128 * t.val + q.val < 4096 := by omega
  rw [View.read_apply]
  have hemb : ((cfg0.win 8).blk t).view.emb (ix2 p q) = ix2 p (⟨128 * t.val + q.val, hj⟩ : Fin 4096) := by
    funext a
    apply Fin.ext
    match a with
    | ⟨0, _⟩ => show win0_8.index t (0 : Fin 2) * 4096 + 1 * p.val = p.val; rw [e0]; omega
    | ⟨1, _⟩ => show win0_8.index t (1 : Fin 2) * 128 + 1 * q.val = 128 * t.val + q.val; rw [e1]; omega
  rw [hemb]
  show k0_pay2 (F := Ideal) (iblk m c 0 t) (iblk m c 1 t) (iblk m c 2 t) (iblk m c 3 t) (iblk m c 5 t) (iblk m c 6 t) (iblk m c 4 t) (ix2 p q) = _
  exact trace_point (iblk m c 0 t) (iblk m c 1 t) (iblk m c 2 t) (iblk m c 3 t) (iblk m c 5 t) (iblk m c 6 t) (iblk m c 4 t)
    (argX m c) (argHidden m c) (argHebb m c) (argWi m c) (argBi m c) (argW m c) (argAlpha m c) (argEta m c) p ⟨128 * t.val + q.val, hj⟩ q
    (fun k => wBlock_apply m c t (ix2 k q) (ix2 k ⟨128 * t.val + q.val, hj⟩) rfl rfl)
    (fun k => alphaBlock_apply m c t (ix2 k q) (ix2 k ⟨128 * t.val + q.val, hj⟩) rfl rfl)
    (fun k => hebbBlock_apply m c t (ix2 k q) (ix2 k ⟨128 * t.val + q.val, hj⟩) rfl rfl)
    (fun k => hiddenBlock_apply m c t (ix2 0 k))
    (driveBlock_apply m c t q ⟨128 * t.val + q.val, hj⟩ rfl)
    (etaBlock_apply m c t) (hiddenColBlock_apply m c t p)

/-- An index of the activations' array is in point `t`'s block iff each coordinate is in the block's range. -/
theorem mem_actBlk (t : Fin cfg0.N) (i : S1x4096.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v5_0).slice (win0_7.rect t)).set ↔ _
  rw [View.set_slice_whole, Rect.mem_set_unit]
  exact Iff.rfl

/-- The same for the trace's array. -/
theorem mem_traceBlk (t : Fin cfg0.N) (i : S4096x4096.Idx) :
    i ∈ ((cfg0.win 8).blk t).view.set ↔ ∀ a : Fin 2, win0_8.index t a * S4096x128.size a ≤ (i a).val ∧ (i a).val < win0_8.index t a * S4096x128.size a + S4096x128.size a := by
  show i ∈ ((View.whole main_v5_1).slice (win0_8.rect t)).set ↔ _
  rw [View.set_slice_whole, Rect.mem_set_unit]
  exact Iff.rfl

/-- Column `j` lies in the block of point `j / 128`: the 32 column blocks tile the activations' array, which therefore
    ends holding the specification's activations. -/
theorem finalAct (c : Dev nD) : (dats m 0 c).arrAt 7 cfg0.N = specAct m c :=
  (dats m 0 c).arrAt_eq_of_cover 7 (specAct m c) (fun t _ => flushedAct_eq m c t) fun i => by
    have hi0 : (i 0).val < 1 := (i 0).isLt
    have hi1 : (i 1).val < 4096 := (i 1).isLt
    let t : Fin cfg0.N := ⟨(i 1).val / 128, lt_of_lt_of_eq (by omega : (i 1).val / 128 < 32) N_0.symm⟩
    have htv : t.val = (i 1).val / 128 := rfl
    obtain ⟨-, -, -, -, -, -, -, -, -, -, -, -, -, -, e0, e1, -⟩ := idx_facts t
    refine ⟨t, flush0_7 t, ?_⟩
    rw [mem_actBlk]
    intro a
    match a with
    | ⟨0, _⟩ => show win0_7.index t (0 : Fin 2) * 1 ≤ (i 0).val ∧ (i 0).val < win0_7.index t (0 : Fin 2) * 1 + 1; rw [e0]; omega
    | ⟨1, _⟩ => show win0_7.index t (1 : Fin 2) * 128 ≤ (i 1).val ∧ (i 1).val < win0_7.index t (1 : Fin 2) * 128 + 128; rw [e1, htv]; omega

/-- Likewise the trace's array ends holding the specification's updated trace. -/
theorem finalTrace (c : Dev nD) : (dats m 0 c).arrAt 8 cfg0.N = specTrace m c :=
  (dats m 0 c).arrAt_eq_of_cover 8 (specTrace m c) (fun t _ => flushedTrace_eq m c t) fun i => by
    have hi0 : (i 0).val < 4096 := (i 0).isLt
    have hi1 : (i 1).val < 4096 := (i 1).isLt
    let t : Fin cfg0.N := ⟨(i 1).val / 128, lt_of_lt_of_eq (by omega : (i 1).val / 128 < 32) N_0.symm⟩
    have htv : t.val = (i 1).val / 128 := rfl
    obtain ⟨-, -, -, -, -, -, -, -, -, -, -, -, -, -, -, -, e0, e1⟩ := idx_facts t
    refine ⟨t, flush0_8 t, ?_⟩
    rw [mem_traceBlk]
    intro a
    match a with
    | ⟨0, _⟩ => show win0_8.index t (0 : Fin 2) * 4096 ≤ (i 0).val ∧ (i 0).val < win0_8.index t (0 : Fin 2) * 4096 + 4096; rw [e0]; omega
    | ⟨1, _⟩ => show win0_8.index t (1 : Fin 2) * 128 ≤ (i 1).val ∧ (i 1).val < win0_8.index t (1 : Fin 2) * 128 + 128; rw [e1, htv]; omega

/-! ## The two heads after the region

Both programs finish with the same lines on the activations' row: a policy head (an affine map to four logits and a
softmax over them) and a value head (an affine map to one number). They are kept closed: the claim only needs that
equal activations give equal heads. -/

/-- The four logits. -/
def logits (h : FVec Ideal S1x4096 .f32) (Wo : FVec Ideal S4096x4 .f32) (bo : FVec Ideal S4 .f32) : FVec Ideal S1x4 .f32 :=
  addf (Host.dotGeneral (F := Ideal) dot_S1x4096_S4096x4_S1x4_1_0_0_1_n_n none h Wo) (broadcastInDim S1x4 ![1] bcast_S4_S1x4_1 bo)

/-- The logits less their maximum, exponentiated. -/
def shiftedExp (z : FVec Ideal S1x4 .f32) : FVec Ideal S1x4 .f32 :=
  Host.exp (F := Ideal) (subf z (broadcastInDim S1x4 ![0, 1] bcast_S1x1_S1x4_0_1 (broadcastInDim S1x1 ![0] bcast_S1_S1x1_0
    (maximumf (broadcastInDim S1 ![] bcast_S_S1 (constant (F := Ideal) S_ .f32 0xFF800000#32))
      (Host.reduce (FloatOps.maximumf (F := Ideal) (φ := .f32)) z (constant (F := Ideal) S_ .f32 0xFF800000#32) reducesTo_S1x4_S1_d1 h_S_)))))

/-- The policy head: the softmax of the logits. -/
def policy (h : FVec Ideal S1x4096 .f32) (Wo : FVec Ideal S4096x4 .f32) (bo : FVec Ideal S4 .f32) : FVec Ideal S1x4 .f32 :=
  Host.divf (F := Ideal) (shiftedExp (logits h Wo bo)) (broadcastInDim S1x4 ![0, 1] bcast_S1x1_S1x4_0_1 (broadcastInDim S1x1 ![0] bcast_S1_S1x1_0
    (Host.reduceAdd (F := Ideal) (shiftedExp (logits h Wo bo)) (constant (F := Ideal) S_ .f32 0x00000000#32) reducesTo_S1x4_S1_d1 h_S_)))

/-- The value head. -/
def value (h : FVec Ideal S1x4096 .f32) (Wv : FVec Ideal S4096x1 .f32) (bv : FVec Ideal S1 .f32) : FVec Ideal S1x1 .f32 :=
  addf (Host.dotGeneral (F := Ideal) dot_S1x4096_S4096x1_S1x1_1_0_0_1_n_n none h Wv) (broadcastInDim S1x1 ![1] bcast_S1_S1x1_1 bv)

/-- What the lines after the region find: the activations' array at the specification's row … -/
theorem tail_act (c : Dev nD) :
    Pipeline.withArrays spec0 c (V0 m c) (fun w => (dats m 0 c).arrAt w cfg0.N) (Proc.devRef .tc main_v5_0) = specAct m c :=
  (Pipeline.withArrays_arr spec0 launch0.win.arr_inj c _ _ 7).trans (finalAct m c)

/-- … and an argument no window stages as launched. -/
theorem tail_arg (c : Dev nD) (b : Ref sig .tc) (hb : ∀ w, Pipeline.arrRef spec0 w ≠ b) :
    Pipeline.withArrays spec0 c (V0 m c) (fun w => (dats m 0 c).arrAt w cfg0.N) (Proc.devRef .tc b) = V m c b :=
  Pipeline.withArrays_of_ne spec0 c (V0 m c) _ b hb

/-- The policy result after the run. -/
theorem tail_policy (c : Dev nD) :
    Pipeline.afterTail₀ cfgs (dats m) 0 (V0 m) [hostOps1] c main_v19 = policy (specAct m c) (argWo m c) (argBo m c) := by
  unfold Pipeline.afterTail₀
  show StableHlo.after hostOps1 _ (Proc.devRef .tc main_v19) = _
  after_results
  rw [tail_act, tail_arg m c main_arg8 (by decide), tail_arg m c main_arg9 (by decide), V_main_arg8, V_main_arg9]
  rfl

/-- The value result after the run. -/
theorem tail_value (c : Dev nD) :
    Pipeline.afterTail₀ cfgs (dats m) 0 (V0 m) [hostOps1] c main_v22 = value (specAct m c) (argWv m c) (argBv m c) := by
  unfold Pipeline.afterTail₀
  show StableHlo.after hostOps1 _ (Proc.devRef .tc main_v22) = _
  after_results
  rw [tail_act, tail_arg m c main_arg10 (by decide), tail_arg m c main_arg11 (by decide), V_main_arg10, V_main_arg11]
  rfl

/-! ## The run, read -/

/-- Every weakly fair execution ends with the four results at the specification's values and the arguments as launched:
    the two arrays the region writes by the covers above, the two heads by the lines after the region, an argument a
    window stages by its array's entry contents, and any other argument by the lines after the region not writing it. -/
theorem run : θ_run defs (onTc (τ := τ) (main (F := Ideal))) ⟨m, fun _ => 0, ρ⟩ fun r => ∀ c : Dev nD,
      r.2.mem ((c.tc : Thread nD τ).loc main_v19) = policy (specAct m c) (argWo m c) (argBo m c)
      ∧ r.2.mem ((c.tc : Thread nD τ).loc main_v22) = value (specAct m c) (argWv m c) (argBv m c)
      ∧ r.2.mem ((c.tc : Thread nD τ).loc main_v5_0) = specAct m c
      ∧ r.2.mem ((c.tc : Thread nD τ).loc main_v5_1) = specTrace m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨
      ((h c).2 main_v19 (Pipeline.mem_restRefs_of main_v19 (by decide) (by decide))).trans (tail_policy m c),
      ((h c).2 main_v22 (Pipeline.mem_restRefs_of main_v22 (by decide) (by decide))).trans (tail_value m c),
      ((h c).1 7).trans (finalAct m c),
      ((h c).1 8).trans (finalTrace m c),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 0).trans (((dats m 0 c).arrAt_in 0 rfl _).trans ((A_eq m c 0).trans (V_main_arg5 m c))),
      ((h c).1 1).trans (((dats m 0 c).arrAt_in 1 rfl _).trans ((A_eq m c 1).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.Hebb.Kernel

end
-- ==== Proof.HebbRefValue.lean ====
/-
  The reference's two array results are the specification's, entry by entry over the extended reals.
  Its activations are tanh of (input drive + recurrent drive) with the recurrent drive one whole product of the hidden
  row with `w + alpha * hebb`; its trace update spreads `1 - eta`, `eta`, the hidden row (as a column) and the new
  activations (as a row) over the whole trace. Read at entry (i, j) each spread reads the one entry it came from; the
  two reshapes to a flat axis of 4096 read back the same coordinate (a remainder mod 4096 of a number below 4096).
-/
import proofs.«100540_j32358283608359_1_alg».proof.Proof.Gen.ReferenceIdeal.Read
import proofs.«100540_j32358283608359_1_alg».proof.Proof.HebbSpec

noncomputable section

namespace Cert.Hebb.Ref

open Cert.ReferenceIdeal Cert.ReferenceIdeal.Read Idealize.ShloMosaic Idealize.ShloMosaic.ValueIdx

/-- The reference's activations are the specification's row. -/
theorem hactiv_eq (x0 : (⟨S1x17, .f32⟩ : BufTy).Contents (Elt Ideal)) (x1 : (⟨S1x4096, .f32⟩ : BufTy).Contents (Elt Ideal))
    (x2 : (⟨S4096x4096, .f32⟩ : BufTy).Contents (Elt Ideal)) (x3 : (⟨S17x4096, .f32⟩ : BufTy).Contents (Elt Ideal))
    (x4 : (⟨S4096, .f32⟩ : BufTy).Contents (Elt Ideal)) (x5 x6 : (⟨S4096x4096, .f32⟩ : BufTy).Contents (Elt Ideal)) :
    val_main_v7 (F := Ideal) x0 x1 x2 x3 x4 x5 x6 = Cert.Hebb.hactiv x0 x1 x2 x3 x4 x5 x6 := by
  funext i
  obtain ⟨p, j, rfl⟩ : ∃ (p : Fin 1) (j : Fin 4096), i = ix2 p j := ⟨i 0, i 1, eq_ix2 i⟩
  obtain rfl : p = 0 := Subsingleton.elim _ _
  have el0 : ∀ k : Fin 17, lidx_main_v0 (ix2 (0 : Fin 1) j) k = ix2 0 k := fun k => funext fun a => Fin.ext (by
    match a with
    | ⟨0, _⟩ => rfl
    | ⟨1, _⟩ => rfl)
  have er0 : ∀ k : Fin 17, ridx_main_v0 (ix2 (0 : Fin 1) j) k = ix2 k j := fun k => funext fun a => Fin.ext (by
    match a with
    | ⟨0, _⟩ => rfl
    | ⟨1, _⟩ => rfl)
  have eb : idx_main_v1 (ix2 (0 : Fin 1) j) = ix1 j := funext fun a => Fin.ext (by
    match a with
    | ⟨0, _⟩ => rfl)
  have el5 : ∀ k : Fin 4096, lidx_main_v5 (ix2 (0 : Fin 1) j) k = ix2 0 k := fun k => funext fun a => Fin.ext (by
    match a with
    | ⟨0, _⟩ => rfl
    | ⟨1, _⟩ => rfl)
  have er5 : ∀ k : Fin 4096, ridx_main_v5 (ix2 (0 : Fin 1) j) k = ix2 k j := fun k => funext fun a => Fin.ext (by
    match a with
    | ⟨0, _⟩ => rfl
    | ⟨1, _⟩ => rfl)
  rw [val_main_v7_apply, val_main_v6_apply, val_main_v2_apply, val_main_v0_apply, val_main_v1_apply, val_main_v5_apply]
  simp only [val_main_v4_apply, val_main_v3_apply, el0, er0, eb, el5, er5]
  rfl

/-- The reference's updated trace is the specification's. -/
theorem hebbNew_eq (x0 : (⟨S1x17, .f32⟩ : BufTy).Contents (Elt Ideal)) (x1 : (⟨S1x4096, .f32⟩ : BufTy).Contents (Elt Ideal))
    (x2 : (⟨S4096x4096, .f32⟩ : BufTy).Contents (Elt Ideal)) (x3 : (⟨S17x4096, .f32⟩ : BufTy).Contents (Elt Ideal))
    (x4 : (⟨S4096, .f32⟩ : BufTy).Contents (Elt Ideal)) (x5 x6 : (⟨S4096x4096, .f32⟩ : BufTy).Contents (Elt Ideal))
    (x7 : (⟨S1, .f32⟩ : BufTy).Contents (Elt Ideal)) :
    val_main_v23 (F := Ideal) x0 x1 x2 x3 x4 x5 x6 x7 = Cert.Hebb.hebbNew x0 x1 x2 x3 x4 x5 x6 x7 := by
  funext i
  obtain ⟨p, q, rfl⟩ : ∃ (p q : Fin 4096), i = ix2 p q := ⟨i 0, i 1, eq_ix2 i⟩
  have erow : idx_main_v13 (idx_main_v15 (idx_main_v17 (ix2 p q))) = ix2 0 p := funext fun a => Fin.ext (by
    match a with
    | ⟨0, _⟩ => rfl
    | ⟨1, _⟩ => exact Nat.mod_eq_of_lt p.isLt)
  have ecol : idx_main_v14 (idx_main_v16 (idx_main_v18 (ix2 p q))) = ix2 0 q := funext fun a => Fin.ext (by
    match a with
    | ⟨0, _⟩ => rfl
    | ⟨1, _⟩ => exact Nat.mod_eq_of_lt q.isLt)
  have eone : idx_main_v10 (idx_main_v11 (ix2 p q)) = ix1 0 := funext fun a => Fin.ext (by
    match a with
    | ⟨0, _⟩ => rfl)
  have eeta : idx_main_v20 (idx_main_v21 (ix2 p q)) = ix1 0 := funext fun a => Fin.ext (by
    match a with
    | ⟨0, _⟩ => rfl)
  rw [val_main_v23_apply, val_main_v12_apply, val_main_v11_apply, val_main_v10_apply, val_main_v9_apply, val_main_v8_apply,
    val_main_cst_apply, val_main_v22_apply, val_main_v21_apply, val_main_v20_apply, val_main_v19_apply, val_main_v17_apply,
    val_main_v15_apply, val_main_v13_apply, val_main_v18_apply, val_main_v16_apply, val_main_v14_apply, erow, ecol, eone, eeta, hactiv_eq]
  rfl

end Cert.Hebb.Ref

end
-- ==== Proof.lean ====
/-
  One step of a recurrent layer with a Hebbian trace: the tiled kernel against the plain array program.

  Both programs compute, for hidden unit j (of 4096), the activation
      act j = tanh ((x . Wi[:, j] + bi[j]) + hidden . (w + alpha * hebb)[:, j]),
  the updated trace
      (1 - eta) * hebb[i, j] + eta * (hidden[i] * act j),
  and two small heads of the activation row (a softmax over four logits, and one value).

  The kernel works through 32 blocks of 128 columns. For each block it holds all 4096 rows of w, alpha and the trace, so
  its product of the hidden row with the block of `w + alpha * hebb` is the complete sum for those columns; the reference
  forms one whole product. Over the extended reals the kernel's narrowing of the product's operands is the identity and
  both products are the plain sum over the contracted coordinate, so the only difference left is that the kernel adds
  the input drive after the recurrent drive and the reference before: addition commutes, and no finiteness is needed.
  The trace update is entry by entry the same expression on both sides, and the heads are the same lines applied to
  equal activation rows.

  The kernel's run is read off its frame: each point writes back the specification's columns, the 32 blocks tile both
  output arrays, and the lines after the region read the activations' array. The reference's run is read stage by stage.
  `preserves` has no entry to discharge: the idealized kernel is the kernel's own text read over the extended reals.
-/
import proofs.«100540_j32358283608359_1_alg».proof.Defs
import proofs.«100540_j32358283608359_1_alg».proof.Proof.Gen.Kernel
import proofs.«100540_j32358283608359_1_alg».proof.Proof.Gen.Kernel.Skeleton
import proofs.«100540_j32358283608359_1_alg».proof.Proof.Gen.Kernel.Launch
import proofs.«100540_j32358283608359_1_alg».proof.Proof.Gen.Kernel.Points
import proofs.«100540_j32358283608359_1_alg».proof.Proof.Gen.Kernel.Frame
import proofs.«100540_j32358283608359_1_alg».proof.Proof.Gen.KernelIdeal
import proofs.«100540_j32358283608359_1_alg».proof.Proof.Gen.KernelIdeal.Skeleton
import proofs.«100540_j32358283608359_1_alg».proof.Proof.Gen.KernelIdeal.Launch
import proofs.«100540_j32358283608359_1_alg».proof.Proof.Gen.KernelIdeal.Points
import proofs.«100540_j32358283608359_1_alg».proof.Proof.Gen.KernelIdeal.Frame
import proofs.«100540_j32358283608359_1_alg».proof.Proof.Gen.ReferenceIdeal
import proofs.«100540_j32358283608359_1_alg».proof.Proof.Gen.Pre_finite_inputs
import proofs.«100540_j32358283608359_1_alg».proof.Proof.Gen.ReferenceIdeal.Run
import proofs.«100540_j32358283608359_1_alg».proof.Proof.Gen.ReferenceIdeal.Read
import proofs.«100540_j32358283608359_1_alg».proof.Proof.HebbSpec
import proofs.«100540_j32358283608359_1_alg».proof.Proof.HebbKernelValue
import proofs.«100540_j32358283608359_1_alg».proof.Proof.HebbRefValue
import Idealize.ShloMosaic.Adequacy
import Idealize.ShloMosaic.Init

set_option maxRecDepth 16384

noncomputable section

open Idealize.ShloMosaic Idealize.ShloMosaic.TcCoe Idealize.SL.Sem

/-! ## The reference's two heads are the kernel's lines on the reference's activations -/

namespace Cert.Hebb.Ref

open Cert.ReferenceIdeal Cert.ReferenceIdeal.Read

/-- The reference's policy result is the softmax head of its activation row. -/
theorem policy_eq (x0 : (⟨S1x17, .f32⟩ : BufTy).Contents (Elt Ideal)) (x1 : (⟨S1x4096, .f32⟩ : BufTy).Contents (Elt Ideal))
    (x2 : (⟨S4096x4096, .f32⟩ : BufTy).Contents (Elt Ideal)) (x3 : (⟨S17x4096, .f32⟩ : BufTy).Contents (Elt Ideal))
    (x4 : (⟨S4096, .f32⟩ : BufTy).Contents (Elt Ideal)) (x5 x6 : (⟨S4096x4096, .f32⟩ : BufTy).Contents (Elt Ideal))
    (x8 : (⟨S4096x4, .f32⟩ : BufTy).Contents (Elt Ideal)) (x9 : (⟨S4, .f32⟩ : BufTy).Contents (Elt Ideal)) :
    val_main_v37 (F := Ideal) x0 x1 x2 x3 x4 x5 x6 x8 x9
      = Cert.Hebb.Kernel.policy (val_main_v7 (F := Ideal) x0 x1 x2 x3 x4 x5 x6) x8 x9 := rfl

/-- The reference's value result is the value head of its activation row. -/
theorem value_eq (x0 : (⟨S1x17, .f32⟩ : BufTy).Contents (Elt Ideal)) (x1 : (⟨S1x4096, .f32⟩ : BufTy).Contents (Elt Ideal))
    (x2 : (⟨S4096x4096, .f32⟩ : BufTy).Contents (Elt Ideal)) (x3 : (⟨S17x4096, .f32⟩ : BufTy).Contents (Elt Ideal))
    (x4 : (⟨S4096, .f32⟩ : BufTy).Contents (Elt Ideal)) (x5 x6 : (⟨S4096x4096, .f32⟩ : BufTy).Contents (Elt Ideal))
    (x10 : (⟨S4096x1, .f32⟩ : BufTy).Contents (Elt Ideal)) (x11 : (⟨S1, .f32⟩ : BufTy).Contents (Elt Ideal)) :
    val_main_v40 (F := Ideal) x0 x1 x2 x3 x4 x5 x6 x10 x11
      = Cert.Hebb.Kernel.value (val_main_v7 (F := Ideal) x0 x1 x2 x3 x4 x5 x6) x10 x11 := rfl

end Cert.Hebb.Ref

namespace Cert.Proof

open Cert.Hebb.Kernel

/-- The kernel as printed runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and keeps its arguments: its run with the four results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- From arguments that agree, both programs end with the specification's activations and trace and the two heads of
    those activations. -/
theorem algebraic : Cert.algebraic_KernelIdeal_ReferenceIdeal := by
  intro m ρ m' ρ' _ hagree
  refine ⟨fun c => policy (specAct m c) (argWo m c) (argBo m c), fun c => value (specAct m c) (argWv m c) (argBv m c),
    fun c => specAct m c, fun c => specTrace m c, Cert.Hebb.Kernel.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11⟩ := hagree c
  obtain ⟨hpol, hval, hact, htrace, hargs⟩ := h c
  refine ⟨hpol.trans ?_, hval.trans ?_, hact.trans ?_, htrace.trans ?_, hargs⟩
  · rw [Cert.ReferenceIdeal.Read.val_main_v37_eq, Cert.Hebb.Ref.policy_eq, Cert.Hebb.Ref.hactiv_eq, a0, a1, a2, a3, a4, a5, a6, a8, a9]
  · rw [Cert.ReferenceIdeal.Read.val_main_v40_eq, Cert.Hebb.Ref.value_eq, Cert.Hebb.Ref.hactiv_eq, a0, a1, a2, a3, a4, a5, a6, a10, a11]
  · rw [Cert.ReferenceIdeal.Read.val_main_v7_eq, Cert.Hebb.Ref.hactiv_eq, a0, a1, a2, a3, a4, a5, a6]
  · rw [Cert.ReferenceIdeal.Read.val_main_v23_eq, Cert.Hebb.Ref.hebbNew_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
